-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S64x64 .f32) (main_arg2 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S100000x64 : Shape := ⟨2, ![100000, 64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S4000x64 : Shape := ⟨2, ![4000, 64]⟩

abbrev nBuf : Space → Nat
  | .hbm => 52
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S5000x64, .f32⟩
  | .local _ .vmem, ⟨18, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .f32 = 32 ∨ (Rect.block (s := S1600000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1600000x64.size a
  hwx1_2 : ∀ i : grid1.Coords, EltTy.bits .f32 = 32 ∨ (Rect.block (s := S1600000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Den.lean ====
/-
  The reference divides a sum over a node's incoming edges by the number of those edges, clamped below by one.
  It spreads that clamped count over a node's 64 feature columns by two broadcasts; here that spread array is
  named once, and read at an index: row `r`, any column, holds `max (cnt r) 1`.
-/
import proofs.«121277_j59889023975881_1_alg».proof.Proof.Gen.KernelIdeal.Frame
import proofs.«121277_j59889023975881_1_alg».proof.Proof.Gen.ReferenceIdeal
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem

/-- The clamped edge count of each node, spread over the node's row: index `(r, j)` holds `max (cnt r) 1`. -/
def den (cnt : FVec Ideal S100000 .f32) : FVec Ideal S100000x64 .f32 :=
  broadcastInDim Cert.ReferenceIdeal.S100000x64 ![0, 1] Cert.ReferenceIdeal.Facts₀.bcast_S100000x1_S100000x64_0_1
    (broadcastInDim Cert.ReferenceIdeal.S100000x1 ![0] Cert.ReferenceIdeal.Facts₀.bcast_S100000_S100000x1_0
      (maximumf cnt (broadcastInDim Cert.ReferenceIdeal.S100000 ![] Cert.ReferenceIdeal.Facts₀.bcast_S_S100000 (constant (F := Ideal) Cert.ReferenceIdeal.S_ .f32 0x3F800000#32))))

/-- The spread count at row `r`, column `j`: the count of row `r` clamped below by one. -/
theorem den_apply (cnt : FVec Ideal S100000 .f32) (r : Fin 100000) (j : Fin 64) :
    den cnt (ValueIdx.ix2 r j) = max (cnt (ValueIdx.ix1 r)) (Ideal.ofBits .f32 0x3F800000#32) := by
  unfold den
  rw [broadcastInDim_apply (s := Cert.ReferenceIdeal.S100000x1) (t := Cert.ReferenceIdeal.S100000x64) ![0, 1] _ _ (ValueIdx.ix2 r j) (ValueIdx.ix2 r (0 : Fin 1))
      (fun a => match a with
        | ⟨0, _⟩ => by show r.val = if (100000 : Nat) = 1 then 0 else r.val; rw [if_neg (by decide)]
        | ⟨1, _⟩ => by show 0 = if (1 : Nat) = 1 then 0 else j.val; rw [if_pos rfl])]
  rw [broadcastInDim_apply (s := Cert.ReferenceIdeal.S100000) (t := Cert.ReferenceIdeal.S100000x1) ![0] _ _ (ValueIdx.ix2 r (0 : Fin 1)) (ValueIdx.ix1 r)
      (fun a => match a with
        | ⟨0, _⟩ => by show r.val = if (100000 : Nat) = 1 then 0 else r.val; rw [if_neg (by decide)])]
  rw [ValueIdx.maximumf_apply]
  rfl

end Cert.KernelIdeal.Regions

end
-- ==== Proof.AggMatmul.lean ====
/-
  The first stage of the layer: each node's summed messages are divided by the node's clamped edge count and the
  quotient rows are multiplied by the weight matrix. The stage runs over twenty blocks of 5000 rows; block `t`, row
  `p` is row `5000 * t + p` of the arrays. This module reads the stage's output array after its last block: at
  row `r`, column `q` it holds the sum over `k` of `S (r, k) / max (cnt r) 1 * W (k, q)`, which is the
  reference's matrix product of the row-normalised sums with the weights.
-/
import proofs.«121277_j59889023975881_1_alg».proof.Proof.Den
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem
open scoped BigOperators

variable (V : (c : Dev nD) → (b : Ref sig .tc) → Buf (Elt Ideal) ((c : Thread nD τ).loc b))

/-! ## The block product's operand indices -/

theorem blockDot_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blockDot_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem blockDot_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem blockDot_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's product at row `p`, column `q`: the sum over the 64 contracted columns. -/
theorem blockDot_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ValueIdx.ix2 p q)
      = ∑ k : Fin 64, a (ValueIdx.ix2 p k) * b (ValueIdx.ix2 k q) := by
  show FloatOps.matmul _ _ _ _ _ _ = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ValueIdx.ix2 p q) ((ValueIdx.contrEquiv1 dot_S5000x64_S64x64_S5000x64_1_0_0_1_n_n 64 rfl rfl).symm k) = ValueIdx.ix2 p k := funext fun a => Fin.ext (by
    match a with
    | ⟨0, _⟩ => exact blockDot_lhs_0 _ _
    | ⟨1, _⟩ => exact (blockDot_lhs_1 _ _).trans hk)
  have er : dot_S5000x64_S64x64_S5000x64_1_0_0_1_n_n.rhsIdx (ValueIdx.ix2 p q) ((ValueIdx.contrEquiv1 dot_S5000x64_S64x64_S5000x64_1_0_0_1_n_n 64 rfl rfl).symm k) = ValueIdx.ix2 k q := funext fun a => Fin.ext (by
    match a with
    | ⟨0, _⟩ => exact (blockDot_rhs_0 _ _).trans hk
    | ⟨1, _⟩ => exact blockDot_rhs_1 _ _)
  rw [el, er]

/-! ## The body's arithmetic at an index -/

/-- What the body computes for row `p`, column `q` of a block: the block's row `p` of sums, each entry divided
    by that row's clamped count, times column `q` of the weights (the two roundings are the identity on exact values). -/
theorem pay_apply (x1 : FVec Ideal S5000x1 .f32) (x0 : FVec Ideal S5000x64 .f32) (x2 : FVec Ideal S64x64 .f32) (p : Fin 5000) (q : Fin 64) :
    k0_pay1 (F := Ideal) x1 x0 x2 (ValueIdx.ix2 p q)
      = ∑ k : Fin 64, Ideal.div (x0 (ValueIdx.ix2 p k)) (max (x1 (ValueIdx.ix2 p (0 : Fin 1))) (Ideal.ofBits .f32 0x3F800000#32)) * x2 (ValueIdx.ix2 k q) := by
  unfold k0_pay1
  rw [blockDot_apply]
  refine Finset.sum_congr rfl fun k _ => ?_
  rw [ValueIdx.truncf_apply, ValueIdx.truncf_apply, ValueIdx.divf_apply, shapeCast_self, shapeCast_self]
  rw [broadcastTo_apply (s := S5000x1) (t := S5000x64) _ _ (ValueIdx.ix2 p k) (ValueIdx.ix2 p (0 : Fin 1))
      (fun a => match a with
        | ⟨0, _⟩ => by show p.val = if (5000 : Nat) = 1 then 0 else p.val; rw [if_neg (by decide)]
        | ⟨1, _⟩ => by show 0 = if (1 : Nat) = 1 then 0 else k.val; rw [if_pos rfl])]
  rw [ValueIdx.maximumf_apply, ValueIdx.broadcast_apply]
  rfl

/-! ## The whole output as one function of the arrays the stage reads -/

/-- Row `r`, column `q` of the stage's output: row `r` of the sums, each entry divided by row `r`'s clamped
    count, times column `q` of the weights. -/
def aggOut (A0 : FVec Ideal S100000x64 .f32) (A1 : FVec Ideal S100000x1 .f32) (A2 : FVec Ideal S64x64 .f32) : FVec Ideal S100000x64 .f32 :=
  fun i => ∑ k : Fin 64, Ideal.div (A0 (ValueIdx.ix2 (n0 := 100000) (n1 := 64) (i 0) k)) (max (A1 (ValueIdx.ix2 (n0 := 100000) (n1 := 1) (i 0) (0 : Fin 1))) (Ideal.ofBits .f32 0x3F800000#32))
    * A2 (ValueIdx.ix2 (n0 := 64) (n1 := 64) k (i 1))

/-- The output function at row `r`, column `s`. -/
theorem aggOut_apply (A0 : FVec Ideal S100000x64 .f32) (A1 : FVec Ideal S100000x1 .f32) (A2 : FVec Ideal S64x64 .f32) (r : Fin 100000) (s : Fin 64) :
    aggOut A0 A1 A2 (ValueIdx.ix2 r s)
      = ∑ k : Fin 64, Ideal.div (A0 (ValueIdx.ix2 r k)) (max (A1 (ValueIdx.ix2 r (0 : Fin 1))) (Ideal.ofBits .f32 0x3F800000#32)) * A2 (ValueIdx.ix2 k s) := rfl

/-- The body's result at row `p`, column `q` of a block is the output function at row `r`, column `s` of the
    array, once the block's row of sums, its count and the weights' column are the arrays' at that row and column. -/
theorem pay_eq_aggOut (x1 : FVec Ideal S5000x1 .f32) (x0 : FVec Ideal S5000x64 .f32) (x2 : FVec Ideal S64x64 .f32)
    (A0 : FVec Ideal S100000x64 .f32) (A1 : FVec Ideal S100000x1 .f32) (A2 : FVec Ideal S64x64 .f32)
    (p : Fin 5000) (q : Fin 64) (r : Fin 100000) (s : Fin 64)
    (h0 : ∀ k : Fin 64, x0 (ValueIdx.ix2 p k) = A0 (ValueIdx.ix2 r k))
    (h1 : x1 (ValueIdx.ix2 p (0 : Fin 1)) = A1 (ValueIdx.ix2 r (0 : Fin 1)))
    (h2 : ∀ k : Fin 64, x2 (ValueIdx.ix2 k q) = A2 (ValueIdx.ix2 k s)) :
    k0_pay1 (F := Ideal) x1 x0 x2 (ValueIdx.ix2 p q) = aggOut A0 A1 A2 (ValueIdx.ix2 r s) := by
  rw [pay_apply, aggOut_apply]
  refine Finset.sum_congr rfl fun k _ => ?_
  rw [h0 k, h1, h2 k]

/-! ## From the blocks to the array -/

theorem zero_offsets : (![0, 0] : Fin 2 → Nat) = fun _ => 0 := funext fun a => by fin_cases a <;> rfl

/-- The four windows' block indices at point `t`: the sums, the counts and the output move together, block `t` of
    rows and the one block of columns; the weights stay at their one block. -/
theorem block_indices : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) = t.val :=
  (by decide +kernel : ∀ t : Fin grid0.N, _)

/-- What point `t` writes back is block `t` of the output function of the three arrays as the stage finds them. -/
theorem flushed_eq_aggOut (c : Dev nD) (t : Fin cfg0.N) :
    (dat0 (F := Ideal) V c).flushed 3 t
      = ((cfg0.win 3).blk t).view.read (Elt Ideal) (aggOut (V c main_v13) (V c main_v18) (V c main_arg1)) := by
  show (cfg0.win 3).cut (grid0.coords t) ((dat0 (F := Ideal) V c).after 3 t) = _
  rw [after0_3]
  unfold out0_3
  rw [View.canon_unit_zero zero_offsets]
  simp only [View.ld_unit_zero (S := S5000x64) zero_offsets, View.ld_unit_zero (S := S5000x1) zero_offsets, View.ld_unit_zero (S := S64x64) zero_offsets]
  obtain ⟨e00, e01, e10, e11, e20, e21, e31, e30⟩ := block_indices t
  funext j
  show k0_pay1 (F := Ideal) (iblk0 V c 1 t) (iblk0 V c 0 t) (iblk0 V c 2 t) j
    = aggOut (V c main_v13) (V c main_v18) (V c main_arg1) (((cfg0.win 3).blk t).view.emb j)
  have hj : j = ValueIdx.ix2 (n0 := 5000) (n1 := 64) (j 0) (j 1) := ValueIdx.eq_ix2 j
  have hi : ((cfg0.win 3).blk t).view.emb j
      = ValueIdx.ix2 (n0 := 100000) (n1 := 64) ((((cfg0.win 3).blk t).view.emb j) 0) ((((cfg0.win 3).blk t).view.emb j) 1) := ValueIdx.eq_ix2 _
  refine (congrArg (k0_pay1 (F := Ideal) (iblk0 V c 1 t) (iblk0 V c 0 t) (iblk0 V c 2 t)) hj).trans
    (Eq.trans ?_ (congrArg (aggOut (V c main_v13) (V c main_v18) (V c main_arg1)) hi.symm))
  refine pay_eq_aggOut _ _ _ _ _ _ (j 0) (j 1) _ _ (fun k => ?_) ?_ (fun k => ?_)
  · show V c main_v13 (((cfg0.win 0).blk t).view.emb (ValueIdx.ix2 (n0 := 5000) (n1 := 64) (j 0) k)) = _
    refine congrArg (V c main_v13) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show V c main_v18 (((cfg0.win 1).blk t).view.emb (ValueIdx.ix2 (n0 := 5000) (n1 := 1) (j 0) (0 : Fin 1))) = _
    refine congrArg (V c main_v18) (funext fun a => Fin.ext ?_)
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  · show V c main_arg1 (((cfg0.win 2).blk t).view.emb (ValueIdx.ix2 (n0 := 64) (n1 := 64) k (j 1))) = _
    refine congrArg (V c main_arg1) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_outBlock (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v19).slice (win0_3.rect t)).set ↔ _
  rw [View.set_slice_whole, Rect.mem_set_unit]
  exact Iff.rfl

/-- Every index of the output array is in some point's block: row `r` is in block `r / 5000`. -/
theorem outBlocks_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by show _ < 20; omega⟩, rfl⟩
  obtain ⟨-, -, -, -, -, -, e31, e30⟩ := block_indices t
  refine ⟨t, flush0_3 t, ?_⟩
  rw [mem_outBlock]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the last block: the output function of the three arrays as the stage finds them. -/
theorem agg_array (c : Dev nD) :
    (dat0 (F := Ideal) V c).arrAt 3 cfg0.N = aggOut (V c main_v13) (V c main_v18) (V c main_arg1) :=
  (dat0 (F := Ideal) V c).arrAt_eq_of_cover 3 (aggOut (V c main_v13) (V c main_v18) (V c main_arg1))
    (fun t _ => flushed_eq_aggOut V c t) outBlocks_cover

/-! ## The reference's product at an index -/

theorem refDot_lhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem refDot_lhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem refDot_rhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem refDot_rhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The reference's product at row `r`, column `s`: the sum over the 64 contracted columns. -/
theorem refDot_apply (a : FVec Ideal Cert.ReferenceIdeal.S100000x64 .f32) (b : FVec Ideal Cert.ReferenceIdeal.S64x64 .f32) (r : Fin 100000) (s : Fin 64) :
    Host.dotGeneral (F := Ideal) Cert.ReferenceIdeal.dot_S100000x64_S64x64_S100000x64_1_0_0_1_n_n none a b (ValueIdx.ix2 r s)
      = ∑ k : Fin 64, a (ValueIdx.ix2 r k) * b (ValueIdx.ix2 k s) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ValueIdx.ix2 r s) ((ValueIdx.contrEquiv1 Cert.ReferenceIdeal.dot_S100000x64_S64x64_S100000x64_1_0_0_1_n_n 64 rfl rfl).symm k) = ValueIdx.ix2 r k := funext fun a => Fin.ext (by
    match a with
    | ⟨0, _⟩ => exact refDot_lhs_0 _ _
    | ⟨1, _⟩ => exact (refDot_lhs_1 _ _).trans hk)
  have er : Cert.ReferenceIdeal.dot_S100000x64_S64x64_S100000x64_1_0_0_1_n_n.rhsIdx (ValueIdx.ix2 r s) ((ValueIdx.contrEquiv1 Cert.ReferenceIdeal.dot_S100000x64_S64x64_S100000x64_1_0_0_1_n_n 64 rfl rfl).symm k) = ValueIdx.ix2 k s := funext fun a => Fin.ext (by
    match a with
    | ⟨0, _⟩ => exact (refDot_rhs_0 _ _).trans hk
    | ⟨1, _⟩ => exact refDot_rhs_1 _ _)
  rw [el, er]

/-- The count column read back: row `r` of the one-column array is entry `r` of the counts. -/
theorem countColumn_apply (cnt : FVec Ideal S100000 .f32) (r : Fin 100000) :
    shapeCast S100000x1 cnt Facts₀.shapeCasts_S100000_S100000x1 (ValueIdx.ix2 r (0 : Fin 1)) = cnt (ValueIdx.ix1 r) :=
  shapeCast_apply (s := S100000) (t := S100000x1) cnt _ (ValueIdx.ix2 r (0 : Fin 1)) (ValueIdx.ix1 r) (by
    rw [Shape.rowMajor_val_two, Shape.rowMajor_val_one]; show r.val = r.val * 1 + 0; omega)

/-! ## The stage's value -/

/-- After the stage's last block its output array is the reference's matrix product of the row-normalised sums with
    the weights. -/
theorem agg_matmul_value (c : Dev nD) (S : FVec Ideal S100000x64 .f32) (cnt : FVec Ideal S100000 .f32) (W : FVec Ideal S64x64 .f32)
    (hS : V c main_v13 = S) (hc : V c main_v18 = shapeCast S100000x1 cnt Facts₀.shapeCasts_S100000_S100000x1) (hW : V c main_arg1 = W) :
    (dat0 (F := Ideal) V c).arrAt 3 cfg0.N
      = Host.dotGeneral Cert.ReferenceIdeal.dot_S100000x64_S64x64_S100000x64_1_0_0_1_n_n none (Host.divf S (den cnt)) W := by
  rw [agg_array, hS, hc, hW]
  funext i
  obtain ⟨r, s, rfl⟩ : ∃ (r : Fin 100000) (s : Fin 64), i = ValueIdx.ix2 r s := ⟨i 0, i 1, ValueIdx.eq_ix2 i⟩
  rw [aggOut_apply, refDot_apply]
  refine Finset.sum_congr rfl fun k _ => ?_
  rw [countColumn_apply]
  show _ = Ideal.div (S (ValueIdx.ix2 r k)) (den cnt (ValueIdx.ix2 r k)) * _
  rw [den_apply]

end Cert.KernelIdeal.Regions

end
-- ==== Proof.Diff.lean ====
/-
  The second launch squares the difference of two gathered arrays, 4000 rows at a time: output block `t` holds rows
  `4000·t … 4000·t + 3999`, and its entry at a row and column is `(a − b)·(a − b)` of the two inputs' entries at the same
  row and column. On the extended reals `d·d = |d|·|d|` (if `−d ≤ d` the absolute value is `d`; otherwise it is `−d`,
  and a product of two negations is the product), so the output array is the reference's `|a − b|·|a − b|`.
  The 400 blocks tile the 1 600 000 rows: row `r` lies in block `r / 4000`.
-/
import proofs.«121277_j59889023975881_1_alg».proof.Proof.Gen.KernelIdeal.Frame
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem

/-- On the extended reals the square of an absolute value is the square. -/
theorem abs_mul_abs (x : EReal) : max x (-x) * max x (-x) = x * x := by
  rcases le_total (-x) x with h | h
  · rw [max_eq_left h]
  · rw [max_eq_right h, neg_mul_neg]

/-- The reference's squared absolute difference, one whole array. -/
abbrev sqAbsDiff (a b : FVec Ideal S1600000x64 .f32) : FVec Ideal S1600000x64 .f32 :=
  mulf (Host.absf (subf a b)) (Host.absf (subf a b))

theorem sqAbsDiff_apply (a b : FVec Ideal S1600000x64 .f32) (i : S1600000x64.Idx) :
    sqAbsDiff a b i = (a i - b i) * (a i - b i) := by
  show max (a i - b i) (-(a i - b i)) * max (a i - b i) (-(a i - b i)) = _
  exact abs_mul_abs _

/-- What the body stores, entry by entry: the square of the difference of its two loaded blocks. -/
theorem diff_pay_apply (x0 x1 : Vec Ideal S4000x64 .f32) (j : S4000x64.Idx) :
    k1_pay1 x0 x1 j = (x0 j - x1 j) * (x0 j - x1 j) := by
  unfold k1_pay1
  simp only [shapeCast_self]
  rfl

theorem zero_offsets : (![0, 0] : Fin 2 → Nat) = fun _ => 0 :=
  funext fun a => match a with | ⟨0, _⟩ => rfl | ⟨1, _⟩ => rfl

/-- The three windows move together: at point `t` each reads or writes row block `t`, column block `0`. -/
theorem diff_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole-array squared absolute difference. -/
theorem diff_flushed (c : Dev nD) (a b : FVec Ideal S1600000x64 .f32)
    (ha : V c main_v26 = a) (hb : V c main_v33 = b) (t : Fin cfg1.N) :
    (dat1 (F := Ideal) V c).flushed 2 t = ((cfg1.win 2).blk t).view.read (Elt Ideal) (sqAbsDiff a b) := by
  show (cfg1.win 2).cut (grid1.coords t) ((dat1 V c).after 2 t) = _
  rw [after1_2]
  unfold out1_2
  rw [View.canon_unit_zero zero_offsets]
  simp only [View.ld_unit_zero (S := S4000x64) zero_offsets]
  obtain ⟨e0, e1, e2, e3, e4, e5⟩ := diff_index t
  have h0 : ∀ j : S4000x64.Idx, ((cfg1.win 0).blk t).view.emb j = ((cfg1.win 2).blk t).view.emb j := by
    intro j; funext d; apply Fin.ext
    match d with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * (j 1).val = win1_2.index t (1 : Fin 2) * 64 + 1 * (j 1).val; omega
  have h1 : ∀ j : S4000x64.Idx, ((cfg1.win 1).blk t).view.emb j = ((cfg1.win 2).blk t).view.emb j := by
    intro j; funext d; apply Fin.ext
    match d with
    | ⟨0, _⟩ => show win1_1.index t (0 : Fin 2) * 4000 + 1 * (j 0).val = win1_2.index t (0 : Fin 2) * 4000 + 1 * (j 0).val; omega
    | ⟨1, _⟩ => show win1_1.index t (1 : Fin 2) * 64 + 1 * (j 1).val = win1_2.index t (1 : Fin 2) * 64 + 1 * (j 1).val; omega
  have hx0 : iblk1 V c 0 t = fun j : S4000x64.Idx => a (((cfg1.win 2).blk t).view.emb j) := by
    funext j
    show V c main_v26 (((cfg1.win 0).blk t).view.emb j) = _
    rw [h0 j, ha]
  have hx1 : iblk1 V c 1 t = fun j : S4000x64.Idx => b (((cfg1.win 2).blk t).view.emb j) := by
    funext j
    show V c main_v33 (((cfg1.win 1).blk t).view.emb j) = _
    rw [h1 j, hb]
  funext j
  show k1_pay1 (iblk1 V c 0 t) (iblk1 V c 1 t) j = sqAbsDiff a b (((cfg1.win 2).blk t).view.emb j)
  rw [hx0, hx1, diff_pay_apply, sqAbsDiff_apply]

/-- An index of the array is in point `t`'s block iff each coordinate is in the block's range on its axis. -/
theorem diff_mem_blk (t : Fin cfg1.N) (i : S1600000x64.Idx) :
    i ∈ ((cfg1.win 2).blk t).view.set ↔ ∀ d : Fin 2, win1_2.index t d * S4000x64.size d ≤ (i d).val ∧ (i d).val < win1_2.index t d * S4000x64.size d + S4000x64.size d := by
  show i ∈ ((View.whole main_v34).slice (win1_2.rect t)).set ↔ _
  rw [View.set_slice_whole, Rect.mem_set_unit]
  exact Iff.rfl

/-- Every row lies in a block: row `r` in block `r / 4000`. -/
theorem diff_cover (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  refine ⟨⟨(i 0).val / 4000, by show (i 0).val / 4000 < 400; omega⟩, flush1_2 _, ?_⟩
  rw [diff_mem_blk]
  obtain ⟨e0, e1, e2, e3, e4, e5⟩ := diff_index ⟨(i 0).val / 4000, by show (i 0).val / 4000 < 400; omega⟩
  intro d
  match d with
  | ⟨0, _⟩ =>
    show win1_2.index _ (0 : Fin 2) * 4000 ≤ (i 0).val ∧ (i 0).val < win1_2.index _ (0 : Fin 2) * 4000 + 4000
    rw [e4]; show (i 0).val / 4000 * 4000 ≤ (i 0).val ∧ (i 0).val < (i 0).val / 4000 * 4000 + 4000; omega
  | ⟨1, _⟩ =>
    show win1_2.index _ (1 : Fin 2) * 64 ≤ (i 1).val ∧ (i 1).val < win1_2.index _ (1 : Fin 2) * 64 + 64
    rw [e5]; omega

/-- The second launch's output array after the run: the reference's squared absolute difference of its two inputs. -/
theorem diff_value (c : Dev nD) (a b : FVec Ideal S1600000x64 .f32)
    (ha : V c main_v26 = a) (hb : V c main_v33 = b) :
    (dat1 (F := Ideal) V c).arrAt 2 cfg1.N
      = mulf (Host.absf (subf a b)) (Host.absf (subf a b)) :=
  (dat1 (F := Ideal) V c).arrAt_eq_of_cover 2 (sqAbsDiff a b) (fun t _ => diff_flushed V c a b ha hb t) diff_cover

end Cert.KernelIdeal.Regions

end
-- ==== Proof.MeanTanh.lean ====
/-
  The third call of the layer: a node's summed incoming messages, divided by the number of its incoming edges clamped
  below by one, under the hyperbolic tangent. The call walks the 100000 rows in 20 blocks of 5000 rows, all 64 columns
  at once; block `t`, row `p` is the array's row `5000 t + p`. Here: the body's result at one index of a block; each
  input block as rows of its array; the block a point writes back as a block of ONE function of the whole arrays; every
  row lying in the block of point `row / 5000`; hence the output array after the call, which is the reference's term.
-/
import proofs.«121277_j59889023975881_1_alg».proof.Proof.Den
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Regions
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b))

namespace MeanTanh

open ValueIdx

/-- The zero offsets of a whole-buffer access, as a constant function. -/
theorem zero_offsets : (![0, 0] : Fin 2 → Nat) = fun _ => 0 :=
  funext fun a => match a with | ⟨0, _⟩ => rfl | ⟨1, _⟩ => rfl

/-- The body's result at row `p`, column `q` of a block: the hyperbolic tangent of the sums' entry there over the
    count of row `p` clamped below by one (the one-column count is spread over the row's 64 columns). -/
theorem body_at (x1 : Vec Ideal S5000x1 .f32) (x0 : Vec Ideal S5000x64 .f32) (p : Fin 5000) (q : Fin 64) :
    k2_pay1 x1 x0 (ix2 p q)
      = Ideal.tanh (Ideal.div (x0 (ix2 p q)) (max (x1 (ix2 p (0 : Fin 1))) (Ideal.ofBits .f32 0x3F800000#32))) := by
  unfold k2_pay1
  show Ideal.tanh (Ideal.div (shapeCast S5000x64 x0 _ (ix2 p q))
    (broadcastTo S5000x64 (maximumf (F := Ideal) (φ := .f32) (shapeCast S5000x1 x1 _) (broadcast S5000x1 _)) _ (ix2 p q))) = _
  rw [shapeCast_self, shapeCast_self]
  rw [broadcastTo_apply (s := S5000x1) (t := S5000x64) _ _ (ix2 p q) (ix2 p (0 : Fin 1))
      (fun a => match a with
        | ⟨0, _⟩ => by show p.val = if (5000 : Nat) = 1 then 0 else p.val; rw [if_neg (by decide)]
        | ⟨1, _⟩ => by show 0 = if (1 : Nat) = 1 then 0 else q.val; rw [if_pos rfl])]
  rfl

/-- A count array cast to a one-column matrix reads, at row `r`, the count of `r`. -/
theorem count_column (cnt : FVec Ideal S100000 .f32) (r : Fin 100000) :
    shapeCast S100000x1 cnt Facts₀.shapeCasts_S100000_S100000x1 (ix2 r (0 : Fin 1)) = cnt (ix1 r) :=
  shapeCast_apply cnt _ _ _ (by
    rw [Shape.rowMajor_val_two, Shape.rowMajor_val_one]
    show r.val = r.val * 1 + 0
    omega)

/-- The printed index maps, decided over the grid: at point `t` every window is at block row `t`, block column 0. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The sums' block at point `t`, row `p`, column `q` is the array's row `5000 t + p`, column `q`. -/
theorem sums_block (c : Dev nD) (t : Fin cfg2.N) (p : Fin 5000) (q : Fin 64) (k : S100000x64.Idx)
    (hk0 : (k 0).val = 5000 * t.val + p.val) (hk1 : (k 1).val = q.val) :
    (iblk2 V c 0 t : Vec Ideal S5000x64 .f32) (ix2 p q) = (V c main_v37 : S100000x64.Idx → Elt Ideal .f32) k := by
  obtain ⟨e0, e1, -, -, -, -⟩ := block_index t
  unfold iblk2
  rw [View.read_apply]
  show V c main_v37 _ = V c main_v37 _
  congr 1
  funext a
  apply Fin.ext
  match a with
  | ⟨0, _⟩ => show win2_0.index t 0 * 5000 + 1 * p.val = (k 0).val; rw [e0, hk0]; omega
  | ⟨1, _⟩ => show win2_0.index t 1 * 64 + 1 * q.val = (k 1).val; rw [e1, hk1]; omega

/-- The counts' block at point `t`, row `p` is the one-column array's row `5000 t + p`. -/
theorem count_block (c : Dev nD) (t : Fin cfg2.N) (p : Fin 5000) (k : S100000x1.Idx)
    (hk0 : (k 0).val = 5000 * t.val + p.val) (hk1 : (k 1).val = 0) :
    (iblk2 V c 1 t : Vec Ideal S5000x1 .f32) (ix2 p (0 : Fin 1)) = (V c main_v18 : S100000x1.Idx → Elt Ideal .f32) k := by
  obtain ⟨-, -, e0, e1, -, -⟩ := block_index t
  unfold iblk2
  rw [View.read_apply]
  show V c main_v18 _ = V c main_v18 _
  congr 1
  funext a
  apply Fin.ext
  match a with
  | ⟨0, _⟩ => show win2_1.index t 0 * 5000 + 1 * p.val = (k 0).val; rw [e0, hk0]; omega
  | ⟨1, _⟩ => show win2_1.index t 1 * 1 + 1 * 0 = (k 1).val; rw [e1, hk1]

/-- The value the call leaves at row `r`, column `q`: the hyperbolic tangent of the row's sum over the row's count
    clamped below by one. -/
def rowMeanTanh (S2 : FVec Ideal S100000x64 .f32) (cnt : FVec Ideal S100000 .f32) : S100000x64.Idx → Elt Ideal .f32 :=
  fun i => Ideal.tanh (Ideal.div (S2 i) (max (cnt (ix1 (i 0))) (Ideal.ofBits .f32 0x3F800000#32)))

/-- The body's result at point `t`, block index `j`, is `rowMeanTanh` at the array index under `j`. -/
theorem body_block_at (c : Dev nD) (S2 : FVec Ideal S100000x64 .f32) (cnt : FVec Ideal S100000 .f32)
    (hS : V c main_v37 = S2) (hc : V c main_v18 = shapeCast S100000x1 cnt Facts₀.shapeCasts_S100000_S100000x1)
    (t : Fin cfg2.N) (j : S5000x64.Idx) :
    k2_pay1 (iblk2 V c 1 t) (iblk2 V c 0 t) j = rowMeanTanh S2 cnt (((cfg2.win 2).blk t).view.emb j) := by
  obtain ⟨p, q, rfl⟩ : ∃ (p : Fin 5000) (q : Fin 64), j = ix2 p q := ⟨j 0, j 1, eq_ix2 j⟩
  obtain ⟨-, -, -, -, e0, e1⟩ := block_index t
  have ht : t.val < 20 := t.isLt
  have hr0 : (((cfg2.win 2).blk t).view.emb (ix2 p q) 0).val = 5000 * t.val + p.val := by
    show win2_2.index t 0 * 5000 + 1 * p.val = _; rw [e0]; omega
  have hr1 : (((cfg2.win 2).blk t).view.emb (ix2 p q) 1).val = q.val := by
    show win2_2.index t 1 * 64 + 1 * q.val = _; rw [e1]; omega
  refine (body_at (iblk2 V c 1 t) (iblk2 V c 0 t) p q).trans ?_
  unfold rowMeanTanh
  rw [sums_block V c t p q _ hr0 hr1, hS,
    count_block V c t p (ix2 (((cfg2.win 2).blk t).view.emb (ix2 p q) 0) (0 : Fin 1)) hr0 rfl, hc]
  exact congrArg (fun d => Ideal.tanh (Ideal.div (S2 _) (max d (Ideal.ofBits .f32 0x3F800000#32)))) (count_column cnt _)

/-- What point `t` writes back is block `t` of `rowMeanTanh`. -/
theorem written_back (c : Dev nD) (S2 : FVec Ideal S100000x64 .f32) (cnt : FVec Ideal S100000 .f32)
    (hS : V c main_v37 = S2) (hc : V c main_v18 = shapeCast S100000x1 cnt Facts₀.shapeCasts_S100000_S100000x1)
    (t : Fin cfg2.N) :
    (dat2 (F := Ideal) V c).flushed 2 t = ((cfg2.win 2).blk t).view.read (Elt Ideal) (rowMeanTanh S2 cnt) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S5000x1) zero_offsets]
  funext j
  exact body_block_at V c S2 cnt hS hc t j

/-- An index of the array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v38).slice (win2_2.rect t)).set ↔ _
  rw [View.set_slice_whole, Rect.mem_set_unit]
  exact Iff.rfl

/-- Every index of the array is in some point's block: row `r` is in the block of point `r / 5000`. -/
theorem rows_covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 5000, by show (i 0).val / 5000 < 20; omega⟩, flush2_2 _, ?_⟩
  rw [mem_block]
  obtain ⟨-, -, -, -, e0, e1⟩ := block_index ⟨(i 0).val / 5000, by show (i 0).val / 5000 < 20; omega⟩
  intro a
  match a with
  | ⟨0, _⟩ =>
    show win2_2.index _ (0 : Fin 2) * 5000 ≤ (i 0).val ∧ (i 0).val < win2_2.index _ (0 : Fin 2) * 5000 + 5000
    rw [e0]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e1]; omega

/-- The host's hyperbolic tangent of the host's quotient of the sums by the spread clamped counts is `rowMeanTanh`:
    at the exact reals the host's and the kernel's tangent are one function, and so are their quotients. -/
theorem reference_eq (S2 : FVec Ideal S100000x64 .f32) (cnt : FVec Ideal S100000 .f32) :
    Host.tanh (Host.divf S2 (den cnt)) = rowMeanTanh S2 cnt := by
  funext i
  obtain ⟨r, q, rfl⟩ : ∃ (r : Fin 100000) (q : Fin 64), i = ix2 r q := ⟨i 0, i 1, eq_ix2 i⟩
  show Ideal.tanh (Ideal.div (S2 (ix2 r q)) (den cnt (ix2 r q))) = _
  rw [den_apply]
  rfl

end MeanTanh

/-- REGION 2's value: the third call leaves in its output array the hyperbolic tangent of the row-normalised sums. -/
theorem mean_tanh_value (c : Dev nD) (S2 : FVec Ideal S100000x64 .f32) (cnt : FVec Ideal S100000 .f32)
    (hS : V c main_v37 = S2) (hc : V c main_v18 = shapeCast S100000x1 cnt Facts₀.shapeCasts_S100000_S100000x1) :
    (dat2 (F := Ideal) V c).arrAt 2 cfg2.N
      = Host.tanh (Host.divf S2 (den cnt)) := by
  rw [MeanTanh.reference_eq]
  exact (dat2 (F := Ideal) V c).arrAt_eq_of_cover 2 (MeanTanh.rowMeanTanh S2 cnt)
    (fun t _ => MeanTanh.written_back V c S2 cnt hS hc t) MeanTanh.rows_covered

end Cert.KernelIdeal.Regions
end
-- ==== Proof.Stretches.lean ====
/-
  The idealized kernel's @main, boundary by boundary. Between its three launches run plain array operations — the
  endpoints of every edge sliced out of the edge list, a row gather, sums scattered onto target nodes — and they are
  the same operations, on the same operands, as the reference's own. So each buffer a launch reads is, at the moment
  the launch starts, one of the reference's intermediate stages of the three arguments; each launch's output array
  is the reference's next stage (the three region modules); and buffers a launch does not write keep their contents.
  Followed from the launch memory to the return this gives: the result buffer ends holding the reference's result
  stage — `tanh` of the per-node mean of `|x_src − x_dst|²`, where `x` is the per-node mean of the neighbours'
  features times the weights — as one function of the node features, the weights and the edge list.
-/
import proofs.«121277_j59889023975881_1_alg».proof.Proof.AggMatmul
import proofs.«121277_j59889023975881_1_alg».proof.Proof.Diff
import proofs.«121277_j59889023975881_1_alg».proof.Proof.MeanTanh
import proofs.«121277_j59889023975881_1_alg».proof.Proof.Gen.ReferenceIdeal.Read
import Idealize.ShloMosaic.Lib.StableHlo.Run
import Idealize.ShloMosaic.Lib.Pipeline.Value

set_option maxRecDepth 16384

noncomputable section

namespace Cert.KernelIdeal.Stretch

open Cert.KernelIdeal Cert.KernelIdeal.Gen Cert.KernelIdeal.Regions Idealize.ShloMosaic Idealize.ShloMosaic.TcCoe Idealize.SL.Sem Idealize.ShloMosaic.StableHlo
open Cert.ReferenceIdeal.Read (val_main_v1 val_main_v3 val_main_v13 val_main_v17 val_main_v23 val_main_v30 val_main_v37 val_main_v40 val_main_v43 val_main_v53)

variable (m : (ℓ : Loc nD τ sig) → Buf (Elt Ideal) ℓ) (ρ : Dev nD → PrngReg)

/-- The three argument arrays as launched: node features, weights, edge endpoints. -/
abbrev nf (c : Dev nD) : FVec Ideal S100000x64 .f32 := m ((c.tc : Thread nD τ).loc main_arg0)
abbrev wt (c : Dev nD) : FVec Ideal S64x64 .f32 := m ((c.tc : Thread nD τ).loc main_arg1)
abbrev ei (c : Dev nD) : IVec S2x1600000 32 := m ((c.tc : Thread nD τ).loc main_arg2)

/-- The count column as every launch finds it: the reference's edge count per node, as a column. -/
abbrev cntCol (c : Dev nD) : FVec Ideal S100000x1 .f32 :=
  shapeCast S100000x1 (val_main_v17 (F := Ideal) (ei m c)) Facts₀.shapeCasts_S100000_S100000x1

/-! ## Before the first launch: the endpoints, the summed neighbour features, the counts -/

theorem W1_v1 (c : Dev nD) : W1 m ρ c (Proc.devRef .tc main_v1) = val_main_v1 (F := Ideal) (ei m c) := by
  show StableHlo.after hostOps0 (W0 m ρ c) (Proc.devRef .tc main_v1) = _
  after_results
  rfl

theorem W1_v3 (c : Dev nD) : W1 m ρ c (Proc.devRef .tc main_v3) = val_main_v3 (F := Ideal) (ei m c) := by
  show StableHlo.after hostOps0 (W0 m ρ c) (Proc.devRef .tc main_v3) = _
  after_results
  rfl

theorem W1_v13 (c : Dev nD) : W1 m ρ c (Proc.devRef .tc main_v13) = val_main_v13 (F := Ideal) (nf m c) (ei m c) := by
  show StableHlo.after hostOps0 (W0 m ρ c) (Proc.devRef .tc main_v13) = _
  after_results
  rfl

theorem W1_v18 (c : Dev nD) : W1 m ρ c (Proc.devRef .tc main_v18) = cntCol m c := by
  show StableHlo.after hostOps0 (W0 m ρ c) (Proc.devRef .tc main_v18) = _
  after_results
  rfl

theorem W1_arg1 (c : Dev nD) : W1 m ρ c (Proc.devRef .tc main_arg1) = wt m c := by
  show StableHlo.after hostOps0 (W0 m ρ c) (Proc.devRef .tc main_arg1) = _
  after_results

/-! ## After the first launch: the projected means, and what it left untouched -/

theorem W2_v19 (c : Dev nD) : W2 m ρ c (Proc.devRef .tc main_v19) = val_main_v23 (F := Ideal) (nf m c) (wt m c) (ei m c) :=
  (W2_arr m ρ c 3).trans (agg_matmul_value (V1 m ρ) c _ _ _ (W1_v13 m ρ c) (W1_v18 m ρ c) (W1_arg1 m ρ c))

theorem W2_v1 (c : Dev nD) : W2 m ρ c (Proc.devRef .tc main_v1) = val_main_v1 (F := Ideal) (ei m c) :=
  (W2_of_ne m ρ c main_v1 (by decide)).trans (W1_v1 m ρ c)

theorem W2_v3 (c : Dev nD) : W2 m ρ c (Proc.devRef .tc main_v3) = val_main_v3 (F := Ideal) (ei m c) :=
  (W2_of_ne m ρ c main_v3 (by decide)).trans (W1_v3 m ρ c)

theorem W2_v18 (c : Dev nD) : W2 m ρ c (Proc.devRef .tc main_v18) = cntCol m c :=
  ((W2_arr m ρ c 1).trans (((dat0 (V1 m ρ) c).arrAt_in 1 rfl _).trans (A_eq0 (V1 m ρ) c 1))).trans (W1_v18 m ρ c)

/-! ## Before the second launch: the projected means gathered at both endpoints of every edge -/

theorem W3_v26 (c : Dev nD) : W3 m ρ c (Proc.devRef .tc main_v26) = val_main_v30 (F := Ideal) (nf m c) (wt m c) (ei m c) := by
  show StableHlo.after hostOps1 (W2 m ρ c) (Proc.devRef .tc main_v26) = _
  after_results
  rw [W2_v19, W2_v1]
  rfl

theorem W3_v33 (c : Dev nD) : W3 m ρ c (Proc.devRef .tc main_v33) = val_main_v37 (F := Ideal) (nf m c) (wt m c) (ei m c) := by
  show StableHlo.after hostOps1 (W2 m ρ c) (Proc.devRef .tc main_v33) = _
  after_results
  rw [W2_v19, W2_v3]
  rfl

theorem W3_v3 (c : Dev nD) : W3 m ρ c (Proc.devRef .tc main_v3) = val_main_v3 (F := Ideal) (ei m c) := by
  show StableHlo.after hostOps1 (W2 m ρ c) (Proc.devRef .tc main_v3) = _
  after_results
  exact W2_v3 m ρ c

theorem W3_v18 (c : Dev nD) : W3 m ρ c (Proc.devRef .tc main_v18) = cntCol m c := by
  show StableHlo.after hostOps1 (W2 m ρ c) (Proc.devRef .tc main_v18) = _
  after_results
  exact W2_v18 m ρ c

/-! ## After the second launch: the squared differences per edge -/

theorem W4_v34 (c : Dev nD) : W4 m ρ c (Proc.devRef .tc main_v34) = val_main_v40 (F := Ideal) (nf m c) (wt m c) (ei m c) :=
  (W4_arr m ρ c 2).trans (diff_value (V3 m ρ) c _ _ (W3_v26 m ρ c) (W3_v33 m ρ c))

theorem W4_v3 (c : Dev nD) : W4 m ρ c (Proc.devRef .tc main_v3) = val_main_v3 (F := Ideal) (ei m c) :=
  (W4_of_ne m ρ c main_v3 (by decide)).trans (W3_v3 m ρ c)

theorem W4_v18 (c : Dev nD) : W4 m ρ c (Proc.devRef .tc main_v18) = cntCol m c :=
  (W4_of_ne m ρ c main_v18 (by decide)).trans (W3_v18 m ρ c)

/-! ## Before the third launch: the squared differences summed per target node -/

theorem W5_v37 (c : Dev nD) : W5 m ρ c (Proc.devRef .tc main_v37) = val_main_v43 (F := Ideal) (nf m c) (wt m c) (ei m c) := by
  show StableHlo.after hostOps2 (W4 m ρ c) (Proc.devRef .tc main_v37) = _
  after_results
  rw [W4_v34, W4_v3]
  rfl

theorem W5_v18 (c : Dev nD) : W5 m ρ c (Proc.devRef .tc main_v18) = cntCol m c := by
  show StableHlo.after hostOps2 (W4 m ρ c) (Proc.devRef .tc main_v18) = _
  after_results
  exact W4_v18 m ρ c

/-! ## The result -/

/-- What the kernel's result buffer holds after the run is the reference's result stage of the same three arguments. -/
theorem result_eq (c : Dev nD) : W6 m ρ c (Proc.devRef .tc main_v38) = val_main_v53 (F := Ideal) (nf m c) (wt m c) (ei m c) :=
  (W6_arr m ρ c 2).trans (mean_tanh_value (V5 m ρ) c _ _ (W5_v37 m ρ c) (W5_v18 m ρ c))

end Cert.KernelIdeal.Stretch

end
-- ==== Proof.lean ====
/-
  The certificate of a graph message-passing layer written as three launches against its plain reference.
  Both programs compute, for every node `n` and feature `j`,
      `tanh ( (Σ over edges e into n of |x[src e] − x[dst e]|²)[j] / max(deg n, 1) )`,
  where `x = (Σ over edges e into n of features[src e]) / max(deg n, 1) · W` and `deg n` counts the edges into `n`.
  The kernel computes the normalisation and the product with `W` 5000 rows at a time (through a narrower float
  format, which on the extended reals is the identity), squares the differences 4000 edges at a time without taking
  the absolute value (`d·d = |d|·|d|`), and normalises and applies `tanh` again 5000 rows at a time; gathers and
  scattered sums stay outside the launches and are the reference's own. A matrix product restricted to a block of
  rows is the product of that block of rows, so every launch's output array is the reference's next intermediate
  array, and the two results are one function of the arguments. No law used needs finiteness: the precondition is
  never opened.
  The frames of the two kernel programs are the generated ones; the reference's frame is its generated run with the
  result dropped; the idealization rewrote nothing, so `preserves` is trivial.
-/
import proofs.«121277_j59889023975881_1_alg».proof.Defs
import proofs.«121277_j59889023975881_1_alg».proof.Proof.Gen.Kernel
import proofs.«121277_j59889023975881_1_alg».proof.Proof.Gen.Kernel.Skeleton
import proofs.«121277_j59889023975881_1_alg».proof.Proof.Gen.Kernel.Launch
import proofs.«121277_j59889023975881_1_alg».proof.Proof.Gen.Kernel.Points
import proofs.«121277_j59889023975881_1_alg».proof.Proof.Gen.Kernel.Frame
import proofs.«121277_j59889023975881_1_alg».proof.Proof.Gen.KernelIdeal
import proofs.«121277_j59889023975881_1_alg».proof.Proof.Gen.KernelIdeal.Skeleton
import proofs.«121277_j59889023975881_1_alg».proof.Proof.Gen.KernelIdeal.Launch
import proofs.«121277_j59889023975881_1_alg».proof.Proof.Gen.KernelIdeal.Points
import proofs.«121277_j59889023975881_1_alg».proof.Proof.Gen.KernelIdeal.Frame
import proofs.«121277_j59889023975881_1_alg».proof.Proof.Gen.ReferenceIdeal
import proofs.«121277_j59889023975881_1_alg».proof.Proof.Gen.Pre_finite_inputs
import proofs.«121277_j59889023975881_1_alg».proof.Proof.Gen.ReferenceIdeal.Run
import proofs.«121277_j59889023975881_1_alg».proof.Proof.Gen.ReferenceIdeal.Read
import proofs.«121277_j59889023975881_1_alg».proof.Proof.RunValue
import proofs.«121277_j59889023975881_1_alg».proof.Proof.Stretches
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's result stage of the kernel's three arguments: the kernel's by
    following its buffers from boundary to boundary, the reference's by its own run from arguments that agree. -/
theorem algebraic : Cert.algebraic_KernelIdeal_ReferenceIdeal := by
  intro m ρ m' ρ' _ hagree
  refine ⟨fun c => Cert.ReferenceIdeal.Read.val_main_v53 (F := Ideal) (Cert.KernelIdeal.Stretch.nf m c) (Cert.KernelIdeal.Stretch.wt m c) (Cert.KernelIdeal.Stretch.ei m c), ?_, ?_⟩
  · exact (θ_run Cert.KernelIdeal.defs _ _).mono
      (fun r h c => ⟨(h c).1.trans (Cert.KernelIdeal.Stretch.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
